-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x3x128x128x128 : Shape := ⟨5, ![4, 3, 128, 128, 128]⟩
abbrev S_ : Shape := ⟨0, ![]⟩

class Facts : Prop where
  bcast_S_S4x3x128x128x128 : S_.BroadcastsInDim S4x3x128x128x128 (![] : Fin 0 → Fin S4x3x128x128x128.rank)
  reducesTo_S4x3x128x128x128_S_d0_1_2_3_4 : S4x3x128x128x128.ReducesTo [0, 1, 2, 3, 4] S_
  h_S_ : 0 < S_.numel

variable [Facts]

def fn {F : FTy → Type} [FloatOps F] (main_arg0 : FVec F S4x3x128x128x128 .f32) : IVec S_ 1 :=
  let main_v0 : FVec F S4x3x128x128x128 .f32 := Host.absf main_arg0
  let main_cst : FVec F S_ .f32 := constant S_ .f32 0x7F800000#32
  let main_v1 : FVec F S4x3x128x128x128 .f32 := broadcastInDim S4x3x128x128x128 ![] bcast_S_S4x3x128x128x128 main_cst
  let main_v2 : IVec S4x3x128x128x128 1 := cmpf .olt main_v0 main_v1
  let main_c : IVec S_ 1 := constantI S_ 1 1#1
  let main_v3 : IVec S_ 1 := (fun x v => Host.reduce IntOp.andi x v reducesTo_S4x3x128x128x128_S_d0_1_2_3_4 h_S_) main_v2 main_c
  main_v3
-- ==== Kernel.lean ====
abbrev S4x3x128x128x128 : Shape := ⟨5, ![4, 3, 128, 128, 128]⟩
abbrev S12x128x128x128 : Shape := ⟨4, ![12, 128, 128, 128]⟩
abbrev S12x1x1 : Shape := ⟨3, ![12, 1, 1]⟩
abbrev S1x128x128x128 : Shape := ⟨4, ![1, 128, 128, 128]⟩
abbrev S1x1x1 : Shape := ⟨3, ![1, 1, 1]⟩
abbrev S128x128 : Shape := ⟨2, ![128, 128]⟩
abbrev S1x1x128x128 : Shape := ⟨4, ![1, 1, 128, 128]⟩
abbrev S128 : Shape := ⟨1, ![128]⟩
abbrev S1x128 : Shape := ⟨2, ![1, 128]⟩
abbrev S1 : Shape := ⟨1, ![1]⟩
abbrev S1x1 : Shape := ⟨2, ![1, 1]⟩
abbrev S_ : Shape := ⟨0, ![]⟩

abbrev nBuf : Space → Nat
  | .hbm => 7
  | .vmem => 4
  | .smem => 0
  | _ => 0

abbrev bufTy : (tb : Table) → Fin (tcTables nBuf tb) → BufTy
  | .hbm, ⟨0, _⟩ => ⟨S4x3x128x128x128, .f32⟩
  | .hbm, ⟨1, _⟩ => ⟨S12x128x128x128, .f32⟩
  | .hbm, ⟨2, _⟩ => ⟨S12x1x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S1x128x128x128, .f32⟩
  | .local _ .vmem, ⟨1, _⟩ => ⟨S1x128x128x128, .f32⟩
  | .local _ .vmem, ⟨2, _⟩ => ⟨S1x1x1, .f32⟩
  | .local _ .vmem, ⟨3, _⟩ => ⟨S1x1x1, .f32⟩
  | _, _ => ⟨S4x3x128x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![12], ![false]⟩

@[reducible] def k0_t1_loop : Scf.Loop 32 :=
  let c0_i32 : BitVec 32 := 0#32
  let c15_i32 : BitVec 32 := 15#32
  let v10 : BitVec 32 := Scalar.addi c0_i32 c15_i32
  let c1_i32 : BitVec 32 := 1#32
  ⟨c0_i32, v10, c1_i32⟩
def k0_off1 (k0_t1 : Fin k0_t1_loop.trips) (c1_i32_46 : BitVec 32) : Fin 4 → Nat :=
  let c0_47 : Index := 0#32
  let c0_i32 : BitVec 32 := 0#32
  let c1_i32 : BitVec 32 := 1#32
  let arg3 : BitVec 32 := Scf.iv c0_i32 c1_i32 k0_t1
  let c8_i32 : BitVec 32 := 8#32
  let v113 : BitVec 32 := Scalar.muli arg3 c8_i32
  let v114 : BitVec 32 := Scalar.addi v113 c1_i32_46
  let v115 : Index := Scalar.indexCast v114
  let c0_48 : Index := 0#32
  let c0_49 : Index := 0#32
  ![0, v115.toNat, 0, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S4x3x128x128x128_S12x128x128x128 : S4x3x128x128x128.ShapeCasts S12x128x128x128
  iota_S128x128_d0_w32 : S128x128.Iotas .tc 32 [0]
  iota_S128x128_d1_w32 : S128x128.Iotas .tc 32 [1]
  inb_S1x128x128x128_S1x1x128x128_0_0_0_0 : ∀ a, (![0, 0, 0, 0] : Fin 4 → Nat) a + S1x1x128x128.size a ≤ S1x128x128x128.size a
  h_S1x1x128x128 : 0 < S1x1x128x128.numel
  shapeCasts_S1x1x128x128_S128x128 : S1x1x128x128.ShapeCasts S128x128
  rotates_S128x128_d0 : S128x128.Rotates 0 none
  rotates_S128x128_d1 : S128x128.Rotates 1 none
  inb_S1x128x128x128_S1x1x128x128_0_121_0_0 : ∀ a, (![0, 121, 0, 0] : Fin 4 → Nat) a + S1x1x128x128.size a ≤ S1x128x128x128.size a
  inb_S1x128x128x128_S1x1x128x128_0_122_0_0 : ∀ a, (![0, 122, 0, 0] : Fin 4 → Nat) a + S1x1x128x128.size a ≤ S1x128x128x128.size a
  inb_S1x128x128x128_S1x1x128x128_0_123_0_0 : ∀ a, (![0, 123, 0, 0] : Fin 4 → Nat) a + S1x1x128x128.size a ≤ S1x128x128x128.size a
  inb_S1x128x128x128_S1x1x128x128_0_124_0_0 : ∀ a, (![0, 124, 0, 0] : Fin 4 → Nat) a + S1x1x128x128.size a ≤ S1x128x128x128.size a
  inb_S1x128x128x128_S1x1x128x128_0_125_0_0 : ∀ a, (![0, 125, 0, 0] : Fin 4 → Nat) a + S1x1x128x128.size a ≤ S1x128x128x128.size a
  inb_S1x128x128x128_S1x1x128x128_0_126_0_0 : ∀ a, (![0, 126, 0, 0] : Fin 4 → Nat) a + S1x1x128x128.size a ≤ S1x128x128x128.size a
  inb_S1x128x128x128_S1x1x128x128_0_127_0_0 : ∀ a, (![0, 127, 0, 0] : Fin 4 → Nat) a + S1x1x128x128.size a ≤ S1x128x128x128.size a
  reduces_S128x128_S128 : S128x128.Reduces [0] S128
  shapeCasts_S128_S1x128 : S128.ShapeCasts S1x128
  reduces_S1x128_S1 : S1x128.Reduces [1] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S12x1x1_S_d0_1_2 : S12x1x1.ReducesTo [0, 1, 2] S_
  h_S_ : 0 < S_.numel
  hrank0 : 0 < grid0.rank
  k0_t1_ok : k0_t1_loop.OK
  k0_off1_inb : ∀ k0_t1 : Fin k0_t1_loop.trips, ∀ (r : Fin 8), ∀ a, (k0_off1 k0_t1 (BitVec.ofNat 32 (1 + r.val))) a + S1x1x128x128.size a ≤ S1x128x128x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x128x128.size a ≤ S12x128x128x128.size a
  hwx0_0 : ∀ i : grid0.Coords, EltTy.bits .f32 = 32 ∨ (Rect.block (s := S12x128x128x128) S1x128x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1.size a ≤ S12x1x1.size a
  hwx0_1 : ∀ i : grid0.Coords, EltTy.bits .f32 = 32 ∨ (Rect.block (s := S12x1x1) S1x1x1.size (cc0_transform_1 i) (hinb0_1 i)).WholeWords (EltTy.packing .f32)

variable [Facts₀]

abbrev win0_0 : Pipeline.Window sig grid0 :=
  Pipeline.Window.ofSpec (Memref.whole main_v0) S1x128x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4x3x128x128x128 : Shape := ⟨5, ![4, 3, 128, 128, 128]⟩
abbrev S4x3x127x127x127 : Shape := ⟨5, ![4, 3, 127, 127, 127]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4x3x128x128x128, .f32⟩
  | .hbm, ⟨1, _⟩ => ⟨S4x3x127x127x127, .f32⟩
  | .hbm, ⟨2, _⟩ => ⟨S4x3x127x127x127, .f32⟩
  | .hbm, ⟨3, _⟩ => ⟨S4x3x127x127x127, .f32⟩
  | .hbm, ⟨4, _⟩ => ⟨S4x3x127x127x127, .f32⟩
  | .hbm, ⟨5, _⟩ => ⟨S4x3x127x127x127, .f32⟩
  | .hbm, ⟨6, _⟩ => ⟨S4x3x127x127x127, .f32⟩
  | .hbm, ⟨7, _⟩ => ⟨S4x3x127x127x127, .f32⟩
  | .hbm, ⟨8, _⟩ => ⟨S4x3x127x127x127, .f32⟩
  | .hbm, ⟨9, _⟩ => ⟨S_, .f32⟩
  | .hbm, ⟨10, _⟩ => ⟨S_, .f32⟩
  | .hbm, ⟨11, _⟩ => ⟨S4x3x127x127x127, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S4x3x127x127x127, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | _, _ => ⟨S4x3x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_v9 : Ref sig .tc := ⟨.hbm, 11, rfl⟩
abbrev main_cst_0 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_1 : Ref sig .tc := ⟨.hbm, 16, rfl⟩
abbrev main_v13 : Ref sig .tc := ⟨.hbm, 17, rfl⟩
abbrev main_v14 : Ref sig .tc := ⟨.hbm, 18, rfl⟩
abbrev main_cst_2 : Ref sig .tc := ⟨.hbm, 19, rfl⟩
abbrev main_v15 : Ref sig .tc := ⟨.hbm, 20, rfl⟩

abbrev nD : Nat := 1
abbrev τ : Topo := Topo.v7x

variable {F : FTy → Type} [FloatOps F]

class Facts₀ : Prop where
  slices_S4x3x128x128x128_S4x3x127x127x127_0_0_0_0_0 : S4x3x128x128x128.Slices ![0, 0, 0, 0, 0] S4x3x127x127x127
  slices_S4x3x128x128x128_S4x3x127x127x127_0_0_1_0_0 : S4x3x128x128x128.Slices ![0, 0, 1, 0, 0] S4x3x127x127x127
  slices_S4x3x128x128x128_S4x3x127x127x127_0_0_0_1_0 : S4x3x128x128x128.Slices ![0, 0, 0, 1, 0] S4x3x127x127x127
  slices_S4x3x128x128x128_S4x3x127x127x127_0_0_0_0_1 : S4x3x128x128x128.Slices ![0, 0, 0, 0, 1] S4x3x127x127x127
  reducesTo_S4x3x127x127x127_S_d0_1_2_3_4 : S4x3x127x127x127.ReducesTo [0, 1, 2, 3, 4] S_
  h_S_ : 0 < S_.numel

variable [Facts₀]

class Facts : Prop extends Facts₀ where

variable [Facts]
-- ==== Proof.LibTileSums.lean ====
/-
  Sums over tiles and over index sets, in any additive commutative monoid — general lemmas, with no program in sight.

  `sum_idx5`: a sum over the index set of a rank-5 array is the five-fold sum over its coordinates.
  `sum_comm3`: a triple sum taken in the order k, j, i is the same sum taken in the order i, j, k.
  `sum_mask2`: a double sum over an (n + 1) × (n + 1) tile whose last row and last column are replaced by zero is
  the sum over the n × n tile of the places before the last.
-/
import Idealize.ShloMosaic.Lib.ValueIdx
import Mathlib.Algebra.BigOperators.Fin
import Mathlib.Algebra.BigOperators.Ring.Finset
import Mathlib.Data.Fintype.BigOperators
import Mathlib.Logic.Equiv.Fin.Basic

noncomputable section

namespace Cert.LibTileSums

open Idealize.ShloMosaic Idealize.ShloMosaic.ValueIdx

/-- A rank-5 index set is the product of its five coordinate ranges. -/
def idxEquiv5 {n0 n1 n2 n3 n4 : Nat} :
    (⟨5, ![n0, n1, n2, n3, n4]⟩ : Shape).Idx ≃ Fin n0 × Fin n1 × Fin n2 × Fin n3 × Fin n4 where
  toFun j := (j 0, j 1, j 2, j 3, j 4)
  invFun p := ix5 p.1 p.2.1 p.2.2.1 p.2.2.2.1 p.2.2.2.2
  left_inv j := (eq_ix5 j).symm
  right_inv _ := rfl

/-- A sum over a rank-5 index set is the five-fold sum over the coordinates. -/
theorem sum_idx5 {M : Type*} [AddCommMonoid M] {n0 n1 n2 n3 n4 : Nat}
    (f : (⟨5, ![n0, n1, n2, n3, n4]⟩ : Shape).Idx → M) :
    ∑ j, f j = ∑ a : Fin n0, ∑ b : Fin n1, ∑ c : Fin n2, ∑ d : Fin n3, ∑ e : Fin n4, f (ix5 a b c d e) := by
  rw [← Equiv.sum_comp (idxEquiv5 (n0 := n0) (n1 := n1) (n2 := n2) (n3 := n3) (n4 := n4)).symm f]
  simp only [Fintype.sum_prod_type]
  rfl

/-- A triple sum taken in the order k, j, i equals the same sum taken in the order i, j, k: exchange the two inner
    sums, then the two outer ones, then the two inner ones again. -/
theorem sum_comm3 {M : Type*} [AddCommMonoid M] {α β γ : Type*} [Fintype α] [Fintype β] [Fintype γ]
    (F : α → β → γ → M) : ∑ k, ∑ j, ∑ i, F i j k = ∑ i, ∑ j, ∑ k, F i j k := by
  calc ∑ k, ∑ j, ∑ i, F i j k = ∑ k, ∑ i, ∑ j, F i j k := Finset.sum_congr rfl (fun k _ => Finset.sum_comm)
    _ = ∑ i, ∑ k, ∑ j, F i j k := Finset.sum_comm
    _ = ∑ i, ∑ j, ∑ k, F i j k := Finset.sum_congr rfl (fun i _ => Finset.sum_comm)

/-- A double sum over an (n + 1) × (n + 1) tile whose last row and last column are replaced by zero is the sum over
    the n × n tile of the places before the last: each of the two sums splits off its last term, which is zero, and
    at the places before the last the condition holds. -/
theorem sum_mask2 {M : Type*} [AddCommMonoid M] (n : ℕ) (G : Fin (n + 1) → Fin (n + 1) → M) :
    ∑ k : Fin (n + 1), ∑ j : Fin (n + 1), (if j.val < n ∧ k.val < n then G j k else 0)
      = ∑ k : Fin n, ∑ j : Fin n, G j.castSucc k.castSucc := by
  rw [Fin.sum_univ_castSucc]
  have h1 : ∑ j : Fin (n + 1), (if j.val < n ∧ (Fin.last n).val < n then G j (Fin.last n) else 0) = 0 := by
    apply Finset.sum_eq_zero
    intro j _
    rw [if_neg]
    simp
  rw [h1, add_zero]
  apply Finset.sum_congr rfl
  intro k _
  rw [Fin.sum_univ_castSucc, if_neg (by simp), add_zero]
  apply Finset.sum_congr rfl
  intro j _
  rw [if_pos]
  simp

end Cert.LibTileSums

end
-- ==== Proof.Spec.lean ====
/-
  The quantity both programs compute, and the two arrangements of it.

  For a mesh `x` of shape [4, 3, 128, 128, 128] the result is the sum, over the 12 leading pairs (b, c) and over the
  interior lattice points (i, j, k) with i, j, k < 127, of the squared forward differences
  (x[i+1,j,k] - x[i,j,k])² + (x[i,j+1,k] - x[i,j,k])² + (x[i,j,k+1] - x[i,j,k])², divided by 12 afterwards.
  `total` is that sum written once, over `Fin` coordinates.  One program adds the three kinds of differences up
  separately over the whole index set and then adds the three sums; the other works slab by slab (a slab is one
  pair (b, c), numbered 3·b + c), sums the three squares together along i at every (j, k) of the full 128 × 128
  tile with the neighbour taken cyclically, zeroes the last row and the last column of the tile, and adds the tile
  up.  Addition of extended reals is commutative and associative, and that is all the two arrangements need.
-/
import proofs.«170996_g5583457484972_feedfinal_621_18_alg».proof.Proof.LibTileSums
import Idealize.ShloMosaic.Lib.ValueIdx
import Mathlib.Algebra.BigOperators.Fin
import Mathlib.Algebra.BigOperators.Ring.Finset
import Mathlib.Data.Fintype.BigOperators
import Mathlib.Logic.Equiv.Fin.Basic

noncomputable section

namespace Cert.FwdDiff

open Idealize.ShloMosaic Idealize.ShloMosaic.ValueIdx Cert.LibTileSums

/-- The three squared forward differences at one lattice point: from the value there and the values at its
    neighbours along the three axes. -/
def sq3 (a ax ay az : EReal) : EReal := (ax - a) * (ax - a) + (ay - a) * (ay - a) + (az - a) * (az - a)

/-- The sum of the squared forward differences over the 12 slabs and the interior points. -/
def total (x : (⟨5, ![4, 3, 128, 128, 128]⟩ : Shape).Idx → EReal) : EReal :=
  ∑ b : Fin 4, ∑ c : Fin 3, ∑ i : Fin 127, ∑ j : Fin 127, ∑ k : Fin 127,
    sq3 (x (ix5 b c i.castSucc j.castSucc k.castSucc)) (x (ix5 b c i.succ j.castSucc k.castSucc))
      (x (ix5 b c i.castSucc j.succ k.castSucc)) (x (ix5 b c i.castSucc j.castSucc k.succ))

/-- One slab's share as the slab-by-slab program takes it: over the full tile, neighbours cyclic (`j + 1`, `k + 1`
    in `Fin 128`), the last row and column zeroed. -/
def slabPart (y : (⟨4, ![12, 128, 128, 128]⟩ : Shape).Idx → EReal) (t : Fin 12) : EReal :=
  ∑ k : Fin 128, ∑ j : Fin 128,
    if j.val < 127 ∧ k.val < 127 then
      ∑ i : Fin 127, sq3 (y (ix4 t i.castSucc j k)) (y (ix4 t i.succ j k)) (y (ix4 t i.castSucc (j + 1) k))
        (y (ix4 t i.castSucc j (k + 1)))
    else 0

/-- A sum over the 12 slab numbers is the double sum over the pairs (b, c), the slab of a pair being 3·b + c: the pairs
    and the numbers below 12 correspond one to one under (b, c) ↦ c + 3·b. -/
theorem sum_fin12 {M : Type*} [AddCommMonoid M] (g : Fin 12 → M) :
    ∑ t : Fin 12, g t = ∑ b : Fin 4, ∑ c : Fin 3, g ⟨3 * b.val + c.val, by omega⟩ := by
  rw [← Fintype.sum_prod_type (f := fun p : Fin 4 × Fin 3 => g ⟨3 * p.1.val + p.2.val, by omega⟩)]
  symm
  apply Fintype.sum_equiv (finProdFinEquiv (m := 4) (n := 3))
  intro p
  congr 1
  apply Fin.ext
  simp [finProdFinEquiv]
  omega

/-- One slab's share over the interior points only: the zeroed last row and column drop out, and before the last place
    the cyclic neighbour j + 1 (k + 1) is the ordinary next place. -/
theorem slabPart_eq (y : (⟨4, ![12, 128, 128, 128]⟩ : Shape).Idx → EReal) (t : Fin 12) :
    slabPart y t = ∑ k : Fin 127, ∑ j : Fin 127, ∑ i : Fin 127,
      sq3 (y (ix4 t i.castSucc j.castSucc k.castSucc)) (y (ix4 t i.succ j.castSucc k.castSucc))
        (y (ix4 t i.castSucc j.succ k.castSucc)) (y (ix4 t i.castSucc j.castSucc k.succ)) := by
  unfold slabPart
  rw [sum_mask2 127 (fun j k => ∑ i : Fin 127, sq3 (y (ix4 t i.castSucc j k)) (y (ix4 t i.succ j k))
    (y (ix4 t i.castSucc (j + 1) k)) (y (ix4 t i.castSucc j (k + 1))))]
  simp only [Fin.coeSucc_eq_succ]

/-- The slabs' shares add up to the total, when the slabs are the mesh with its two leading axes merged. -/
theorem sum_slabPart (x : (⟨5, ![4, 3, 128, 128, 128]⟩ : Shape).Idx → EReal)
    (y : (⟨4, ![12, 128, 128, 128]⟩ : Shape).Idx → EReal)
    (hy : ∀ (b : Fin 4) (c : Fin 3) (h : 3 * b.val + c.val < 12) (i j k : Fin 128),
      y (ix4 ⟨3 * b.val + c.val, h⟩ i j k) = x (ix5 b c i j k)) :
    ∑ t : Fin 12, slabPart y t = total x := by
  rw [sum_fin12 (slabPart y)]
  unfold total
  apply Finset.sum_congr rfl
  intro b _
  apply Finset.sum_congr rfl
  intro c _
  rw [slabPart_eq]
  simp only [hy]
  exact sum_comm3 (fun (i j k : Fin 127) =>
    sq3 (x (ix5 b c i.castSucc j.castSucc k.castSucc)) (x (ix5 b c i.succ j.castSucc k.castSucc))
      (x (ix5 b c i.castSucc j.succ k.castSucc)) (x (ix5 b c i.castSucc j.castSucc k.succ)))

end Cert.FwdDiff

end
-- ==== Proof.RefValue.lean ====
import proofs.«170996_g5583457484972_feedfinal_621_18_alg».proof.Proof.Gen.ReferenceIdeal.Run
import proofs.«170996_g5583457484972_feedfinal_621_18_alg».proof.Proof.Gen.ReferenceIdeal.Read
import proofs.«170996_g5583457484972_feedfinal_621_18_alg».proof.Proof.Spec
import proofs.«170996_g5583457484972_feedfinal_621_18_alg».proof.Proof.LibTileSums
import Idealize.ShloMosaic.Lib.ValueIdx
import Idealize.ShloMosaic.PureOps.Ideal.Laws

/-
  The reference program's result, read off its operations: the three sums of squared forward differences, each taken
  over the whole interior index set, add up to the one sum of the three squares at every interior point, and the
  result is that sum divided by the constant 12.  Only commutativity and associativity of addition of extended reals
  are used (a finite sum of sums is the sum of the pointwise sums; a sum over an index set is the iterated sum over
  its coordinates).
-/

noncomputable section

namespace Cert.ReferenceIdeal.RefValue

open Cert.ReferenceIdeal Cert.ReferenceIdeal.Gen Cert.ReferenceIdeal.Read Cert.FwdDiff
open Idealize.ShloMosaic Idealize.ShloMosaic.ValueIdx Cert.LibTileSums

/-- The unshifted slice reads the mesh at the same coordinates. -/
theorem idx_v0_ix5 (b : Fin 4) (c : Fin 3) (i j k : Fin 127) :
    idx_main_v0 (ix5 b c i j k) = ix5 b c i.castSucc j.castSucc k.castSucc := by
  funext a
  match a with
  | ⟨0, _⟩ => rfl
  | ⟨1, _⟩ => rfl
  | ⟨2, _⟩ => rfl
  | ⟨3, _⟩ => rfl
  | ⟨4, _⟩ => rfl

/-- The slice shifted along the third axis reads the mesh one step further along it. -/
theorem idx_v1_ix5 (b : Fin 4) (c : Fin 3) (i j k : Fin 127) :
    idx_main_v1 (ix5 b c i j k) = ix5 b c i.succ j.castSucc k.castSucc := by
  funext a
  match a with
  | ⟨0, _⟩ => rfl
  | ⟨1, _⟩ => rfl
  | ⟨2, _⟩ => exact Fin.ext (by show 1 + i.val = i.val + 1; omega)
  | ⟨3, _⟩ => rfl
  | ⟨4, _⟩ => rfl

/-- The slice shifted along the fourth axis reads the mesh one step further along it. -/
theorem idx_v3_ix5 (b : Fin 4) (c : Fin 3) (i j k : Fin 127) :
    idx_main_v3 (ix5 b c i j k) = ix5 b c i.castSucc j.succ k.castSucc := by
  funext a
  match a with
  | ⟨0, _⟩ => rfl
  | ⟨1, _⟩ => rfl
  | ⟨2, _⟩ => rfl
  | ⟨3, _⟩ => exact Fin.ext (by show 1 + j.val = j.val + 1; omega)
  | ⟨4, _⟩ => rfl

/-- The slice shifted along the fifth axis reads the mesh one step further along it. -/
theorem idx_v5_ix5 (b : Fin 4) (c : Fin 3) (i j k : Fin 127) :
    idx_main_v5 (ix5 b c i j k) = ix5 b c i.castSucc j.castSucc k.succ := by
  funext a
  match a with
  | ⟨0, _⟩ => rfl
  | ⟨1, _⟩ => rfl
  | ⟨2, _⟩ => rfl
  | ⟨3, _⟩ => rfl
  | ⟨4, _⟩ => exact Fin.ext (by show 1 + k.val = k.val + 1; omega)

/-- The reference's result: the sum of the squared forward differences, divided by 12. -/
theorem ref_value (x0 : (⟨S4x3x128x128x128, .f32⟩ : BufTy).Contents (Elt Ideal)) :
    Cert.ReferenceIdeal.Read.val_main_v15 (F := Ideal) x0
      = fun _ => Ideal.div (Cert.FwdDiff.total x0) (Ideal.ofBits .f32 0x41400000#32) := by
  funext i
  rw [val_main_v15_apply, val_main_v14_apply, val_main_v11_apply, val_main_v8_apply, val_main_v10_apply,
    val_main_v13_apply, val_main_cst_apply, val_main_cst_0_apply, val_main_cst_1_apply, val_main_cst_2_apply]
  simp only [Ideal.hostDivf_def, Ideal.addf_def, Ideal.ofBits_def, Ideal.ofBits_zero_f32, zero_add]
  congr 1
  rw [← Finset.sum_add_distrib, ← Finset.sum_add_distrib, sum_idx5]
  unfold Cert.FwdDiff.total
  refine Finset.sum_congr rfl fun b _ => Finset.sum_congr rfl fun c _ => Finset.sum_congr rfl fun i _ =>
    Finset.sum_congr rfl fun j _ => Finset.sum_congr rfl fun k _ => ?_
  rw [val_main_v7_apply, val_main_v9_apply, val_main_v12_apply, val_main_v2_apply, val_main_v4_apply, val_main_v6_apply,
    val_main_v0_apply, val_main_v1_apply, val_main_v3_apply, val_main_v5_apply,
    idx_v0_ix5, idx_v1_ix5, idx_v3_ix5, idx_v5_ix5]
  simp only [Ideal.mulf_def, Ideal.subf_def]
  rfl

end Cert.ReferenceIdeal.RefValue

end
-- ==== Proof.Body.lean ====
/-
  What the kernel body computes at one grid point, as explicit functions of the slab it was handed.

  A slab is a [1, 128, 128, 128] block; its plane `n` is the 128 × 128 tile at leading coordinate `n`.  For two
  consecutive planes `a`, `xn` the body forms the tile `term a xn` = (xn − a)² + (a↑ − a)² + (a← − a)², where a↑ and a←
  are `a` rotated by 127 along its rows and along its columns (entry (j, k) of a↑ is entry (j + 1 mod 128, k) of a).
  The body keeps two running tiles: the terms of the even planes go to the first, those of the odd planes to the
  second.  A counted loop of 15 trips handles planes 0 … 119 eight at a time, carrying the two running tiles and the
  last plane read; the planes 120 … 126 follow, written out; the two tiles are added, the last row and column are
  zeroed, and the tile is summed to one number.  Here the loop's trip and the part after the loop are restated as
  plain functions (`tripFn`, `tailFn`, `finish`) and shown to be what the body's run holds.
-/
import proofs.«170996_g5583457484972_feedfinal_621_18_alg».proof.Proof.Gen.KernelIdeal.Frame
import Idealize.ShloMosaic.Lib.Pipeline.Value

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.Sem

variable {F : FTy → Type} [FloatOps F]

/-- The three tiles the loop carries: the two running sums and the last plane read. -/
abbrev Carry (F : FTy → Type) [FloatOps F] : Type := FVec F S128x128 .f32 × FVec F S128x128 .f32 × FVec F S128x128 .f32

/-- The plane of a slab at the offsets `off`: the 128 × 128 values under the one-plane rectangle there. -/
def plane (x0 : Vec F S1x128x128x128 .f32) (off : Fin 4 → ℕ)
    (h : ∀ a, off a + S1x1x128x128.size a ≤ S1x128x128x128.size a) : FVec F S128x128 .f32 :=
  shapeCast S128x128 (View.ld (Val := Elt F) x0 (Rect.unit (s := S1x128x128x128) off S1x1x128x128.size h))
    shapeCasts_S1x1x128x128_S128x128

/-- The squared forward differences of plane `a`: against the next plane `xn`, against its own next row, and
    against its own next column (the neighbours inside the plane taken cyclically). -/
def term (a xn : FVec F S128x128 .f32) : FVec F S128x128 .f32 :=
  addf (addf (mulf (subf xn a) (subf xn a))
      (mulf (subf (dynamicRotate 0 127#32 none a rotates_S128x128_d0) a)
        (subf (dynamicRotate 0 127#32 none a rotates_S128x128_d0) a)))
    (mulf (subf (dynamicRotate 1 127#32 none a rotates_S128x128_d1) a)
      (subf (dynamicRotate 1 127#32 none a rotates_S128x128_d1) a))

/-- One trip of the loop: planes 8k+1 … 8k+8 are read; with the carried plane 8k they give eight terms, the even
    ones added to the first running tile and the odd ones to the second; plane 8k+8 is carried on. -/
def tripFn (x0 : Vec F S1x128x128x128 .f32) (k : Fin k0_t1_loop.trips) (acc : Carry F) : Carry F :=
  (addf (addf (addf (addf acc.1
      (term acc.2.2 (plane x0 (k0_off1 k 1#32) (k0_off1_inb k 0))))
      (term (plane x0 (k0_off1 k 2#32) (k0_off1_inb k 1)) (plane x0 (k0_off1 k 3#32) (k0_off1_inb k 2))))
      (term (plane x0 (k0_off1 k 4#32) (k0_off1_inb k 3)) (plane x0 (k0_off1 k 5#32) (k0_off1_inb k 4))))
      (term (plane x0 (k0_off1 k 6#32) (k0_off1_inb k 5)) (plane x0 (k0_off1 k 7#32) (k0_off1_inb k 6))),
   addf (addf (addf (addf acc.2.1
      (term (plane x0 (k0_off1 k 1#32) (k0_off1_inb k 0)) (plane x0 (k0_off1 k 2#32) (k0_off1_inb k 1))))
      (term (plane x0 (k0_off1 k 3#32) (k0_off1_inb k 2)) (plane x0 (k0_off1 k 4#32) (k0_off1_inb k 3))))
      (term (plane x0 (k0_off1 k 5#32) (k0_off1_inb k 4)) (plane x0 (k0_off1 k 6#32) (k0_off1_inb k 5))))
      (term (plane x0 (k0_off1 k 7#32) (k0_off1_inb k 6)) (plane x0 (k0_off1 k 8#32) (k0_off1_inb k 7))),
   plane x0 (k0_off1 k 8#32) (k0_off1_inb k 7))

/-- After the loop: the terms of planes 120 … 126 (the carried plane is plane 120), even ones to the first running
    tile, odd ones to the second, and the two tiles added. -/
def tailFn (x0 : Vec F S1x128x128x128 .f32) (L : Carry F) : FVec F S128x128 .f32 :=
  addf
    (addf (addf (addf (addf L.1
        (term L.2.2 (plane x0 ![0, 121, 0, 0] inb_S1x128x128x128_S1x1x128x128_0_121_0_0)))
        (term (plane x0 ![0, 122, 0, 0] inb_S1x128x128x128_S1x1x128x128_0_122_0_0)
          (plane x0 ![0, 123, 0, 0] inb_S1x128x128x128_S1x1x128x128_0_123_0_0)))
        (term (plane x0 ![0, 124, 0, 0] inb_S1x128x128x128_S1x1x128x128_0_124_0_0)
          (plane x0 ![0, 125, 0, 0] inb_S1x128x128x128_S1x1x128x128_0_125_0_0)))
        (term (plane x0 ![0, 126, 0, 0] inb_S1x128x128x128_S1x1x128x128_0_126_0_0)
          (plane x0 ![0, 127, 0, 0] inb_S1x128x128x128_S1x1x128x128_0_127_0_0)))
    (addf (addf (addf L.2.1
        (term (plane x0 ![0, 121, 0, 0] inb_S1x128x128x128_S1x1x128x128_0_121_0_0)
          (plane x0 ![0, 122, 0, 0] inb_S1x128x128x128_S1x1x128x128_0_122_0_0)))
        (term (plane x0 ![0, 123, 0, 0] inb_S1x128x128x128_S1x1x128x128_0_123_0_0)
          (plane x0 ![0, 124, 0, 0] inb_S1x128x128x128_S1x1x128x128_0_124_0_0)))
        (term (plane x0 ![0, 125, 0, 0] inb_S1x128x128x128_S1x1x128x128_0_125_0_0)
          (plane x0 ![0, 126, 0, 0] inb_S1x128x128x128_S1x1x128x128_0_126_0_0)))

/-- The end of the body: the last row and the last column of the tile are replaced by zero, the tile is summed
    along its rows and then along its columns, and the one number is laid out as a [1, 1, 1] block. -/
def finish (v : FVec F S128x128 .f32) : FVec F S1x1x1 .f32 :=
  shapeCast S1x1x1
    (shapeCast S1x1
      (multiReduction .add [1] S1
        (shapeCast S1x128
          (multiReduction .add [0] S128
            (select (k0_pay13) v (broadcast S128x128 (Scalar.ofBits (F := F) .f32 0x00000000#32)))
            0x00000000#32 reduces_S128x128_S128 (.inl rfl) rfl)
          shapeCasts_S128_S1x128)
        0x00000000#32 reduces_S1x128_S1 (.inl rfl) rfl)
      shapeCasts_S1_S1x1)
    shapeCasts_S1x1_S1x1x1

/-- The loop's trip, as the run of the body found it on a staging buffer holding the slab `x0`, is `tripFn`. -/
theorem tripR_eq (𝒱 : Variants) (c : Dev nD) (bd : Option 𝒱.V) (i : grid0.Coords)
    (arg1 : Memref sig .tc .vmem S1x128x128x128 .f32) (harg1 : arg1.IsWhole)
    (arg2 : Memref sig .tc .vmem S1x1x1 .f32) (harg2 : arg2.IsWhole)
    (x0 : Vec F S1x128x128x128 .f32) (k : Fin k0_t1_loop.trips) (acc : Carry F) :
    tripR_k0_t1 (F := F) 𝒱 c bd i arg1 harg1 arg2 harg2 (harg1.unread x0) k acc = tripFn x0 k acc := by
  unfold tripR_k0_t1 trip_k0_t1
  dsimp only
  sl_unfold_words
  simp only [View.readAt_eq_ld, harg1.read_unread]
  rfl

theorem hz3 : (![0, 0, 0] : Fin 3 → ℕ) = fun _ => 0 := by funext a; fin_cases a <;> rfl

/-- What the body leaves in the output block, on a staging buffer holding the slab `x0`: the end of the body applied
    to the part after the loop, applied to the loop's carried tiles after its last trip, from zero tiles and plane 0. -/
theorem out_eq (c : Dev nD) (i : grid0.Coords)
    (arg1 : Memref sig .tc .vmem S1x128x128x128 .f32) (harg1 : arg1.IsWhole)
    (arg2 : Memref sig .tc .vmem S1x1x1 .f32) (harg2 : arg2.IsWhole)
    (x0 : Vec F S1x128x128x128 .f32) :
    out0_A_1 (F := F) c i arg1 harg1 arg2 harg2 x0
      = finish (tailFn x0 (st_k0_t1 (F := F) Variants.none c none i arg1 harg1 arg2 harg2 (harg1.unread x0)
          ((k0_pay14 (F := F)), (k0_pay14 (F := F)), plane x0 ![0, 0, 0, 0] inb_S1x128x128x128_S1x1x128x128_0_0_0_0)
          k0_t1_loop.trips)) := by
  unfold out0_A_1
  rw [View.read_writes_eq_canon _ _ _ (cover0_A_1 c i arg1 harg1 arg2 harg2 x0)]
  unfold kernelRun0_A
  dsimp only
  sl_unfold_words
  rw [View.canon_unit_zero hz3]
  simp only [View.readAt_eq_ld, harg1.read_unread]
  rfl

end Cert.KernelIdeal.Tiles

end
-- ==== Proof.BodyIdeal.lean ====
/-
  The kernel body's result at one grid point, over the extended reals, entry by entry.

  Plane `n` of the slab at entry (j, k) is the slab's value at (0, n, j, k).  The rotation by 127 of a 128-long axis
  reads the next entry cyclically, so the tile `term a xn` at (j, k) is the sum of the three squared forward
  differences `sq3` of `a` at (j, k) against `xn` at (j, k), `a` at (j + 1, k) and `a` at (j, k + 1).  The mask is one exactly
  where j < 127 and k < 127.  The end of the body sums the masked tile over its rows and then over its columns.
-/
import proofs.«170996_g5583457484972_feedfinal_621_18_alg».proof.Proof.Body
import proofs.«170996_g5583457484972_feedfinal_621_18_alg».proof.Proof.Spec
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws

set_option maxRecDepth 16384

noncomputable section

namespace Cert.KernelIdeal.Tiles

open Cert.KernelIdeal Cert.KernelIdeal.Gen Cert.FwdDiff
open Idealize.ShloMosaic Idealize.ShloMosaic.ValueIdx

/-- The slab's value on plane `n` at (j, k); zero past the last plane (never read there). -/
def pv (x0 : Vec Ideal S1x128x128x128 .f32) (n : ℕ) (j k : Fin 128) : EReal :=
  if h : n < 128 then x0 (ix4 (0 : Fin 1) (⟨n, h⟩ : Fin 128) j k) else 0

/-- A plane of the slab read at an entry. -/
theorem plane_apply (x0 : Vec Ideal S1x128x128x128 .f32) (off : Fin 4 → ℕ)
    (h : ∀ a, off a + S1x1x128x128.size a ≤ S1x128x128x128.size a) (n : ℕ) (hoff : off = ![0, n, 0, 0])
    (j k : Fin 128) : plane (F := Ideal) x0 off h (ix2 j k) = pv x0 n j k := by
  subst hoff
  have hn : n < 128 := by
    have h1 := h 1
    have e : (![0, n, 0, 0] : Fin 4 → ℕ) 1 + S1x1x128x128.size 1 = n + 1 := rfl
    have e' : S1x128x128x128.size 1 = 128 := rfl
    omega
  unfold plane pv
  rw [dif_pos hn]
  refine (shapeCast_apply _ _ (ix2 j k) (ix4 (0 : Fin 1) (0 : Fin 1) j k) ?_).trans ?_
  · rw [Shape.rowMajor_val_four, Shape.rowMajor_val_two]
    show ((0 * 1 + 0) * 128 + j.val) * 128 + k.val = j.val * 128 + k.val
    omega
  · refine congrArg x0 (funext fun a => Fin.ext ?_)
    match a with
    | ⟨0, _⟩ => rfl
    | ⟨1, _⟩ => show n + 1 * 0 = n; omega
    | ⟨2, _⟩ => show 0 + 1 * j.val = j.val; omega
    | ⟨3, _⟩ => show 0 + 1 * k.val = k.val; omega

/-- The tile of squared forward differences read at an entry: the rotations read the next row and the next column. -/
theorem term_apply (a xn : FVec Ideal S128x128 .f32) (j k : Fin 128) :
    term a xn (ix2 j k) = sq3 (a (ix2 j k)) (xn (ix2 j k)) (a (ix2 (j + 1) k)) (a (ix2 j (k + 1))) := by
  have r0 : dynamicRotate 0 127#32 none a rotates_S128x128_d0 (ix2 j k) = a (ix2 (j + 1) k) :=
    dynamicRotate_apply 0 127#32 a rotates_S128x128_d0 (ix2 j k) (ix2 (j + 1) k) (fun b => by
      match b with
      | ⟨0, _⟩ =>
        show (j + 1 : Fin 128).val = (j.val + 128 - 127 % 128) % 128
        rw [Fin.val_add]; show (j.val + 1) % 128 = _; omega
      | ⟨1, _⟩ => rfl)
  have r1 : dynamicRotate 1 127#32 none a rotates_S128x128_d1 (ix2 j k) = a (ix2 j (k + 1)) :=
    dynamicRotate_apply 1 127#32 a rotates_S128x128_d1 (ix2 j k) (ix2 j (k + 1)) (fun b => by
      match b with
      | ⟨0, _⟩ => rfl
      | ⟨1, _⟩ =>
        show (k + 1 : Fin 128).val = (k.val + 128 - 127 % 128) % 128
        rw [Fin.val_add]; show (k.val + 1) % 128 = _; omega)
  show (xn (ix2 j k) - a (ix2 j k)) * (xn (ix2 j k) - a (ix2 j k))
      + (dynamicRotate 0 127#32 none a rotates_S128x128_d0 (ix2 j k) - a (ix2 j k))
        * (dynamicRotate 0 127#32 none a rotates_S128x128_d0 (ix2 j k) - a (ix2 j k))
      + (dynamicRotate 1 127#32 none a rotates_S128x128_d1 (ix2 j k) - a (ix2 j k))
        * (dynamicRotate 1 127#32 none a rotates_S128x128_d1 (ix2 j k) - a (ix2 j k)) = _
  rw [r0, r1]; rfl

theorem slt127 : ∀ j : Fin 128, IntOp.cmpi .slt (BitVec.ofNat 32 j.val) 127#32 = if j.val < 127 then 1#1 else 0#1 := by
  decide

/-- The mask is one exactly off the last row and the last column. -/
theorem mask_apply (j k : Fin 128) :
    (k0_pay13 (ix2 j k) = 1#1) ↔ (j.val < 127 ∧ k.val < 127) := by
  unfold k0_pay13
  show IntOp.andi (IntOp.cmpi .slt (iota .tc S128x128 32 [0] iota_S128x128_d0_w32 (ix2 j k)) 127#32)
      (IntOp.cmpi .slt (iota .tc S128x128 32 [1] iota_S128x128_d1_w32 (ix2 j k)) 127#32) = 1#1 ↔ _
  rw [iota_single_apply, iota_single_apply]
  show IntOp.andi (IntOp.cmpi .slt (BitVec.ofNat 32 j.val) 127#32) (IntOp.cmpi .slt (BitVec.ofNat 32 k.val) 127#32) = 1#1 ↔ _
  rw [slt127 j, slt127 k]
  by_cases hj : j.val < 127 <;> by_cases hk : k.val < 127 <;> simp [hj, hk, IntOp.andi]

/-- The masked tile at an entry: the tile's entry off the last row and column, zero on them. -/
theorem masked_apply (v : FVec Ideal S128x128 .f32) (j k : Fin 128) :
    select k0_pay13 v (broadcast S128x128 (Scalar.ofBits (F := Ideal) .f32 0x00000000#32)) (ix2 j k)
      = if j.val < 127 ∧ k.val < 127 then v (ix2 j k) else (0 : EReal) := by
  show Scalar.select (k0_pay13 (ix2 j k)) (v (ix2 j k)) (Ideal.ofBits .f32 0x00000000#32) = _
  unfold Scalar.select
  by_cases hm : j.val < 127 ∧ k.val < 127
  · exact (if_pos ((mask_apply j k).2 hm)).trans (if_pos hm).symm
  · exact (if_neg (fun h => hm ((mask_apply j k).1 h))).trans (Ideal.ofBits_zero_f32.trans (if_neg hm).symm)

/-- The end of the body at its one entry: the masked tile summed over rows, then over columns. -/
theorem finish_apply (v : FVec Ideal S128x128 .f32) (i : S1x1x1.Idx) :
    finish (F := Ideal) v i
      = ∑ k : Fin 128, ∑ j : Fin 128, if j.val < 127 ∧ k.val < 127 then v (ix2 j k) else (0 : EReal) := by
  unfold finish
  refine (shapeCast_apply _ _ i (ix2 (0 : Fin 1) (0 : Fin 1)) ?_).trans ?_
  · rw [Shape.rowMajor_val_two, Shape.rowMajor_val_three]
    have h0 : (i 0).val = 0 := by have := (i 0).isLt; have e : S1x1x1.size 0 = 1 := rfl; omega
    have h1 : (i 1).val = 0 := by have := (i 1).isLt; have e : S1x1x1.size 1 = 1 := rfl; omega
    have h2 : (i 2).val = 0 := by have := (i 2).isLt; have e : S1x1x1.size 2 = 1 := rfl; omega
    show 0 * 1 + 0 = ((i 0).val * 1 + (i 1).val) * 1 + (i 2).val
    omega
  refine (shapeCast_apply _ _ (ix2 (0 : Fin 1) (0 : Fin 1)) (ix1 (0 : Fin 1)) ?_).trans ?_
  · rw [Shape.rowMajor_val_two, Shape.rowMajor_val_one]; rfl
  refine (Ideal.multiReduction_add_single _ 0x00000000#32 reduces_S1x128_S1 (.inl rfl) rfl (ix1 (0 : Fin 1))).trans ?_
  show (∑ k : Fin 128, _) = _
  refine Finset.sum_congr rfl fun k _ => ?_
  refine (shapeCast_apply _ _ _ (ix1 k) ?_).trans ?_
  · rw [Shape.rowMajor_val_two, Shape.rowMajor_val_one]
    show k.val = 0 * 128 + k.val
    omega
  refine (Ideal.multiReduction_add_single _ 0x00000000#32 reduces_S128x128_S128 (.inl rfl) rfl (ix1 k)).trans ?_
  show (∑ j : Fin 128, _) = _
  refine Finset.sum_congr rfl fun j _ => ?_
  have hl : reduces_S128x128_S128.lift (ix1 k) j = ix2 j k :=
    funext fun a => Fin.ext (match a with | ⟨0, _⟩ => rfl | ⟨1, _⟩ => rfl)
  exact (congrArg _ hl).trans (masked_apply v j k)

end Cert.KernelIdeal.Tiles

end
-- ==== Proof.PointValue.lean ====
/-
  The number the kernel body leaves at one grid point, as a function of the slab it was handed.

  Write τ m (j, k) for the three squared forward differences of plane m at (j, k): against plane m + 1 at (j, k) and
  against plane m at (j + 1, k) and (j, k + 1).  Before trip n of the loop the carried plane is plane 8n, and the two
  running tiles together hold, at every entry, the sum of τ m over m < 8n (the even m in one tile, the odd m in the
  other: only their sum matters, and addition commutes).  One trip adds τ 8n … τ (8n + 7).  After 15 trips the seven
  written-out steps add τ 120 … τ 126, so the tile handed to the end of the body is the sum of τ m over m < 127, and
  the point's number is that tile masked and summed.
-/
import proofs.«170996_g5583457484972_feedfinal_621_18_alg».proof.Proof.BodyIdeal
import Mathlib.Tactic.Abel

set_option maxRecDepth 16384

noncomputable section

namespace Cert.KernelIdeal.Tiles

open Cert.KernelIdeal Cert.KernelIdeal.Gen Cert.FwdDiff
open Idealize.ShloMosaic Idealize.ShloMosaic.ValueIdx

/-- The three squared forward differences of plane `m` of the slab at (j, k). -/
def tau (x0 : Vec Ideal S1x128x128x128 .f32) (m : ℕ) (j k : Fin 128) : EReal :=
  sq3 (pv x0 m j k) (pv x0 (m + 1) j k) (pv x0 m (j + 1) k) (pv x0 m j (k + 1))

/-- The term of two tiles that are planes `m` and `m + 1` of the slab is τ m. -/
theorem term_planes (x0 : Vec Ideal S1x128x128x128 .f32) (a xn : FVec Ideal S128x128 .f32) (m : ℕ)
    (ha : ∀ j k : Fin 128, a (ix2 j k) = pv x0 m j k) (hx : ∀ j k : Fin 128, xn (ix2 j k) = pv x0 (m + 1) j k)
    (j k : Fin 128) : term a xn (ix2 j k) = tau x0 m j k := by
  rw [term_apply, ha, hx, ha, ha]; rfl

/-- The planes a trip reads. -/
theorem trip_plane (x0 : Vec Ideal S1x128x128x128 .f32) (n : Fin k0_t1_loop.trips) (r : Fin 8) (j k : Fin 128) :
    plane (F := Ideal) x0 (k0_off1 n (BitVec.ofNat 32 (1 + r.val))) (k0_off1_inb n r) (ix2 j k)
      = pv x0 (8 * n.val + r.val + 1) j k :=
  plane_apply x0 _ _ (8 * n.val + r.val + 1) (k0_off1_eq n r) j k

/-- One trip keeps the invariant: from the carried plane 8n it carries plane 8n + 8 on, and it adds τ 8n … τ (8n+7)
    to the two running tiles taken together. -/
theorem tripFn_step (x0 : Vec Ideal S1x128x128x128 .f32) (n : Fin k0_t1_loop.trips) (acc : Carry Ideal)
    (hA : ∀ j k : Fin 128, acc.2.2 (ix2 j k) = pv x0 (8 * n.val) j k) (j k : Fin 128) :
    (tripFn x0 n acc).2.2 (ix2 j k) = pv x0 (8 * n.val + 8) j k
    ∧ (tripFn x0 n acc).1 (ix2 j k) + (tripFn x0 n acc).2.1 (ix2 j k)
        = (acc.1 (ix2 j k) + acc.2.1 (ix2 j k))
          + (tau x0 (8 * n.val) j k + tau x0 (8 * n.val + 1) j k + tau x0 (8 * n.val + 2) j k
            + tau x0 (8 * n.val + 3) j k + tau x0 (8 * n.val + 4) j k + tau x0 (8 * n.val + 5) j k
            + tau x0 (8 * n.val + 6) j k + tau x0 (8 * n.val + 7) j k) := by
  have p0 : ∀ j k : Fin 128, plane (F := Ideal) x0 (k0_off1 n 1#32) (k0_off1_inb n 0) (ix2 j k)
      = pv x0 (8 * n.val + 1) j k := trip_plane x0 n 0
  have p1 : ∀ j k : Fin 128, plane (F := Ideal) x0 (k0_off1 n 2#32) (k0_off1_inb n 1) (ix2 j k)
      = pv x0 (8 * n.val + 2) j k := trip_plane x0 n 1
  have p2 : ∀ j k : Fin 128, plane (F := Ideal) x0 (k0_off1 n 3#32) (k0_off1_inb n 2) (ix2 j k)
      = pv x0 (8 * n.val + 3) j k := trip_plane x0 n 2
  have p3 : ∀ j k : Fin 128, plane (F := Ideal) x0 (k0_off1 n 4#32) (k0_off1_inb n 3) (ix2 j k)
      = pv x0 (8 * n.val + 4) j k := trip_plane x0 n 3
  have p4 : ∀ j k : Fin 128, plane (F := Ideal) x0 (k0_off1 n 5#32) (k0_off1_inb n 4) (ix2 j k)
      = pv x0 (8 * n.val + 5) j k := trip_plane x0 n 4
  have p5 : ∀ j k : Fin 128, plane (F := Ideal) x0 (k0_off1 n 6#32) (k0_off1_inb n 5) (ix2 j k)
      = pv x0 (8 * n.val + 6) j k := trip_plane x0 n 5
  have p6 : ∀ j k : Fin 128, plane (F := Ideal) x0 (k0_off1 n 7#32) (k0_off1_inb n 6) (ix2 j k)
      = pv x0 (8 * n.val + 7) j k := trip_plane x0 n 6
  have p7 : ∀ j k : Fin 128, plane (F := Ideal) x0 (k0_off1 n 8#32) (k0_off1_inb n 7) (ix2 j k)
      = pv x0 (8 * n.val + 8) j k := trip_plane x0 n 7
  refine ⟨p7 j k, ?_⟩
  have t0 := term_planes x0 acc.2.2 _ (8 * n.val) hA p0 j k
  have t1 := term_planes x0 _ _ (8 * n.val + 1) p0 p1 j k
  have t2 := term_planes x0 _ _ (8 * n.val + 2) p1 p2 j k
  have t3 := term_planes x0 _ _ (8 * n.val + 3) p2 p3 j k
  have t4 := term_planes x0 _ _ (8 * n.val + 4) p3 p4 j k
  have t5 := term_planes x0 _ _ (8 * n.val + 5) p4 p5 j k
  have t6 := term_planes x0 _ _ (8 * n.val + 6) p5 p6 j k
  have t7 := term_planes x0 _ _ (8 * n.val + 7) p6 p7 j k
  unfold tripFn
  show (acc.1 (ix2 j k) + term acc.2.2 _ (ix2 j k) + term _ _ (ix2 j k) + term _ _ (ix2 j k) + term _ _ (ix2 j k))
      + (acc.2.1 (ix2 j k) + term _ _ (ix2 j k) + term _ _ (ix2 j k) + term _ _ (ix2 j k) + term _ _ (ix2 j k)) = _
  rw [t0, t1, t2, t3, t4, t5, t6, t7]
  abel

/-- The loop makes 15 trips. -/
theorem trips_eq : k0_t1_loop.trips = 15 := by decide

/-- The invariant along any sequence of carried values that starts from zero tiles and plane 0 and moves by the trip. -/
theorem loop_inv (x0 : Vec Ideal S1x128x128x128 .f32) (s : ℕ → Carry Ideal)
    (h0 : s 0 = ((k0_pay14 (F := Ideal)), (k0_pay14 (F := Ideal)),
      plane x0 ![0, 0, 0, 0] inb_S1x128x128x128_S1x1x128x128_0_0_0_0))
    (hs : ∀ n : Fin k0_t1_loop.trips, s (n.val + 1) = tripFn x0 n (s n.val)) :
    ∀ n : ℕ, n ≤ k0_t1_loop.trips → ∀ j k : Fin 128,
      (s n).2.2 (ix2 j k) = pv x0 (8 * n) j k
      ∧ (s n).1 (ix2 j k) + (s n).2.1 (ix2 j k) = ∑ m ∈ Finset.range (8 * n), tau x0 m j k := by
  intro n
  induction n with
  | zero =>
    intro _ j k
    rw [h0]
    refine ⟨plane_apply x0 _ _ 0 rfl j k, ?_⟩
    show Ideal.ofBits .f32 0x00000000#32 + Ideal.ofBits .f32 0x00000000#32 = _
    rw [Ideal.ofBits_zero_f32]
    simp
  | succ n ih =>
    intro hn j k
    have hlt : n < k0_t1_loop.trips := hn
    have ih' := ih (Nat.le_of_lt hlt)
    have e : s (n + 1) = tripFn x0 ⟨n, hlt⟩ (s n) := hs ⟨n, hlt⟩
    obtain ⟨h1, h2⟩ := tripFn_step x0 ⟨n, hlt⟩ (s n) (fun j k => (ih' j k).1) j k
    rw [e]
    refine ⟨h1, ?_⟩
    rw [h2, (ih' j k).2]
    show _ = ∑ m ∈ Finset.range (8 * n + 8), tau x0 m j k
    simp only [Finset.sum_range_succ]
    abel

/-- After the loop: with the carried plane 120 and the terms below 120 in the running tiles, the seven steps that
    follow leave the sum of τ m over m < 127. -/
theorem tailFn_apply (x0 : Vec Ideal S1x128x128x128 .f32) (L : Carry Ideal) (j k : Fin 128)
    (hL2 : ∀ j k : Fin 128, L.2.2 (ix2 j k) = pv x0 120 j k)
    (hL : L.1 (ix2 j k) + L.2.1 (ix2 j k) = ∑ m ∈ Finset.range 120, tau x0 m j k) :
    tailFn x0 L (ix2 j k) = ∑ m ∈ Finset.range 127, tau x0 m j k := by
  have q1 : ∀ j k : Fin 128, plane (F := Ideal) x0 ![0, 121, 0, 0] inb_S1x128x128x128_S1x1x128x128_0_121_0_0 (ix2 j k)
      = pv x0 121 j k := plane_apply x0 _ _ 121 rfl
  have q2 : ∀ j k : Fin 128, plane (F := Ideal) x0 ![0, 122, 0, 0] inb_S1x128x128x128_S1x1x128x128_0_122_0_0 (ix2 j k)
      = pv x0 122 j k := plane_apply x0 _ _ 122 rfl
  have q3 : ∀ j k : Fin 128, plane (F := Ideal) x0 ![0, 123, 0, 0] inb_S1x128x128x128_S1x1x128x128_0_123_0_0 (ix2 j k)
      = pv x0 123 j k := plane_apply x0 _ _ 123 rfl
  have q4 : ∀ j k : Fin 128, plane (F := Ideal) x0 ![0, 124, 0, 0] inb_S1x128x128x128_S1x1x128x128_0_124_0_0 (ix2 j k)
      = pv x0 124 j k := plane_apply x0 _ _ 124 rfl
  have q5 : ∀ j k : Fin 128, plane (F := Ideal) x0 ![0, 125, 0, 0] inb_S1x128x128x128_S1x1x128x128_0_125_0_0 (ix2 j k)
      = pv x0 125 j k := plane_apply x0 _ _ 125 rfl
  have q6 : ∀ j k : Fin 128, plane (F := Ideal) x0 ![0, 126, 0, 0] inb_S1x128x128x128_S1x1x128x128_0_126_0_0 (ix2 j k)
      = pv x0 126 j k := plane_apply x0 _ _ 126 rfl
  have q7 : ∀ j k : Fin 128, plane (F := Ideal) x0 ![0, 127, 0, 0] inb_S1x128x128x128_S1x1x128x128_0_127_0_0 (ix2 j k)
      = pv x0 127 j k := plane_apply x0 _ _ 127 rfl
  have t0 := term_planes x0 L.2.2 _ 120 hL2 q1 j k
  have t1 := term_planes x0 _ _ 121 q1 q2 j k
  have t2 := term_planes x0 _ _ 122 q2 q3 j k
  have t3 := term_planes x0 _ _ 123 q3 q4 j k
  have t4 := term_planes x0 _ _ 124 q4 q5 j k
  have t5 := term_planes x0 _ _ 125 q5 q6 j k
  have t6 := term_planes x0 _ _ 126 q6 q7 j k
  unfold tailFn
  show (L.1 (ix2 j k) + term L.2.2 _ (ix2 j k) + term _ _ (ix2 j k) + term _ _ (ix2 j k) + term _ _ (ix2 j k))
      + (L.2.1 (ix2 j k) + term _ _ (ix2 j k) + term _ _ (ix2 j k) + term _ _ (ix2 j k)) = _
  rw [t0, t1, t2, t3, t4, t5, t6]
  rw [Finset.sum_range_succ, Finset.sum_range_succ, Finset.sum_range_succ, Finset.sum_range_succ,
    Finset.sum_range_succ, Finset.sum_range_succ, Finset.sum_range_succ, ← hL]
  abel

/-- τ at an interior plane, from the slab's values. -/
theorem tau_fin (x0 : Vec Ideal S1x128x128x128 .f32) (i : Fin 127) (j k : Fin 128) :
    tau x0 i.val j k = sq3 (x0 (ix4 (0 : Fin 1) i.castSucc j k)) (x0 (ix4 (0 : Fin 1) i.succ j k))
      (x0 (ix4 (0 : Fin 1) i.castSucc (j + 1) k)) (x0 (ix4 (0 : Fin 1) i.castSucc j (k + 1))) := by
  have h1 : i.val < 128 := by have := i.isLt; omega
  have h2 : i.val + 1 < 128 := by have := i.isLt; omega
  unfold tau pv
  simp only [dif_pos h1, dif_pos h2]
  rfl

/-- One slab's number: over the full tile, the sum along the planes of the squared forward differences (neighbours in
    the plane cyclic), the last row and column left out. -/
def slabVal (x0 : Vec Ideal S1x128x128x128 .f32) : EReal :=
  ∑ k : Fin 128, ∑ j : Fin 128,
    if j.val < 127 ∧ k.val < 127 then
      ∑ i : Fin 127, sq3 (x0 (ix4 (0 : Fin 1) i.castSucc j k)) (x0 (ix4 (0 : Fin 1) i.succ j k))
        (x0 (ix4 (0 : Fin 1) i.castSucc (j + 1) k)) (x0 (ix4 (0 : Fin 1) i.castSucc j (k + 1)))
    else 0

/-- What the body leaves in the output block at a grid point is the slab's number. -/
theorem out_value (c : Dev nD) (i : grid0.Coords)
    (arg1 : Memref sig .tc .vmem S1x128x128x128 .f32) (harg1 : arg1.IsWhole)
    (arg2 : Memref sig .tc .vmem S1x1x1 .f32) (harg2 : arg2.IsWhole)
    (x0 : Vec Ideal S1x128x128x128 .f32) (i3 : S1x1x1.Idx) :
    out0_A_1 (F := Ideal) c i arg1 harg1 arg2 harg2 x0 i3 = slabVal x0 := by
  rw [out_eq, finish_apply]
  unfold slabVal
  refine Finset.sum_congr rfl fun k _ => Finset.sum_congr rfl fun j _ => ?_
  refine if_congr Iff.rfl ?_ rfl
  have hinv := loop_inv x0
    (st_k0_t1 (F := Ideal) Variants.none c none i arg1 harg1 arg2 harg2 (harg1.unread x0)
      ((k0_pay14 (F := Ideal)), (k0_pay14 (F := Ideal)),
        plane x0 ![0, 0, 0, 0] inb_S1x128x128x128_S1x1x128x128_0_0_0_0))
    rfl
    (fun n => (st_k0_t1_succ (F := Ideal) Variants.none c none i arg1 harg1 arg2 harg2 (harg1.unread x0) _ n).trans
      (tripR_eq Variants.none c none i arg1 harg1 arg2 harg2 x0 n _))
    k0_t1_loop.trips (Nat.le_refl _)
  have e : 8 * k0_t1_loop.trips = 120 := by rw [trips_eq]
  rw [e] at hinv
  rw [tailFn_apply x0 _ j k (fun j k => (hinv j k).1) (hinv j k).2, Finset.sum_range]
  exact Finset.sum_congr rfl fun i _ => tau_fin x0 i j k

end Cert.KernelIdeal.Tiles

end
-- ==== Proof.KernelValue.lean ====
/-
  The kernel's whole run over the extended reals: its result is the total of the squared forward differences over
  12.

  The host first views the mesh as 12 slabs (a reshape: slab 3·b + c is the pair (b, c)).  Grid point t is handed
  slab t and leaves the slab's number in block t of a [12, 1, 1] array; the twelve blocks fill that array.  The host
  then adds the twelve numbers from zero and divides by 12.
-/
import proofs.«170996_g5583457484972_feedfinal_621_18_alg».proof.Proof.PointValue
import Idealize.ShloMosaic.Lib.StableHlo.Run

set_option maxRecDepth 16384

noncomputable section

namespace Cert.KernelIdeal.SlabRun

open Cert.KernelIdeal Cert.KernelIdeal.Gen Cert.KernelIdeal.Tiles Cert.FwdDiff
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ) (ρ : Dev nD → PrngReg)

/-- The slabs as the region finds them, and the mesh as launched. -/
abbrev slabs (c : Dev nD) : S12x128x128x128.Idx → EReal := V m c main_v0
abbrev mesh (c : Dev nD) : S4x3x128x128x128.Idx → EReal := m ((c : Thread nD τ).loc main_arg0)

/-- The slabs are the mesh reshaped. -/
theorem slabs_eq (c : Dev nD) :
    slabs m c = shapeCast S12x128x128x128 (mesh m c) shapeCasts_S4x3x128x128x128_S12x128x128x128 := by
  show StableHlo.after hostOps0 (fun b => m (c, b)) (Proc.devRef .tc main_v0) = _
  after_results
  rfl

/-- Slab 3·b + c at (i, j, k) is the mesh at (b, c, i, j, k). -/
theorem slabs_apply (c : Dev nD) (b : Fin 4) (c' : Fin 3) (h : 3 * b.val + c'.val < 12) (i j k : Fin 128) :
    slabs m c (ix4 (⟨3 * b.val + c'.val, h⟩ : Fin 12) i j k) = mesh m c (ix5 b c' i j k) := by
  rw [slabs_eq]
  refine shapeCast_apply _ _ _ _ ?_
  rw [Shape.rowMajor_val_five, Shape.rowMajor_val_four]
  show (((b.val * 3 + c'.val) * 128 + i.val) * 128 + j.val) * 128 + k.val
      = (((3 * b.val + c'.val) * 128 + i.val) * 128 + j.val) * 128 + k.val
  omega

/-- The slab grid point t is handed. -/
abbrev xblk (c : Dev nD) (t : Fin cfg0.N) : Vec Ideal S1x128x128x128 .f32 := iblk m c 0 t

/-- The printed index maps over the grid: point t's input block is slab t, its output block is block t. -/
theorem idx_facts : ∀ t : Fin cfg0.N, win0_0.index t (0 : Fin 4) = t.val ∧ win0_0.index t (1 : Fin 4) = 0
    ∧ win0_0.index t (2 : Fin 4) = 0 ∧ win0_0.index t (3 : Fin 4) = 0
    ∧ win0_1.index t (0 : Fin 3) = t.val ∧ win0_1.index t (1 : Fin 3) = 0 ∧ win0_1.index t (2 : Fin 3) = 0 :=
  (by decide +kernel : ∀ t : Fin grid0.N, _)

theorem t_lt (t : Fin cfg0.N) : t.val < 12 := by have := t.isLt; have e : cfg0.N = 12 := N_0; omega

/-- The slab handed to point t, read at an entry, is slab t of the slabs. -/
theorem xblk_apply (c : Dev nD) (t : Fin cfg0.N) (a : Fin 1) (i j k : Fin 128) :
    xblk m c t (ix4 a i j k) = slabs m c (ix4 (⟨t.val, t_lt t⟩ : Fin 12) i j k) := by
  obtain ⟨e0, e1, e2, e3, -, -, -⟩ := idx_facts t
  show V m c main_v0 (((cfg0.win 0).blk t).view.emb (ix4 a i j k)) = V m c main_v0 _
  refine congrArg (V m c main_v0) (funext fun d => Fin.ext ?_)
  have ha : a.val = 0 := by omega
  match d with
  | ⟨0, _⟩ => show win0_0.index t (0 : Fin 4) * 1 + 1 * a.val = t.val; omega
  | ⟨1, _⟩ => show win0_0.index t (1 : Fin 4) * 128 + 1 * i.val = i.val; omega
  | ⟨2, _⟩ => show win0_0.index t (2 : Fin 4) * 128 + 1 * j.val = j.val; omega
  | ⟨3, _⟩ => show win0_0.index t (3 : Fin 4) * 128 + 1 * k.val = k.val; omega

/-- So the slab's number at point t is the share of slab t. -/
theorem slabVal_xblk (c : Dev nD) (t : Fin cfg0.N) :
    slabVal (xblk m c t) = slabPart (slabs m c) (⟨t.val, t_lt t⟩ : Fin 12) := by
  unfold slabVal slabPart
  refine Finset.sum_congr rfl fun k _ => Finset.sum_congr rfl fun j _ => if_congr Iff.rfl ?_ rfl
  refine Finset.sum_congr rfl fun i _ => ?_
  rw [xblk_apply, xblk_apply, xblk_apply, xblk_apply]

/-- What point t leaves in the output block: the share of slab t, at its one entry. -/
theorem outsAt0_eq (c : Dev nD) (t : Fin cfg0.N) :
    outsAt0 m c t = fun _ => slabPart (slabs m c) (⟨t.val, t_lt t⟩ : Fin 12) := by
  funext i3
  rw [← slabVal_xblk]
  exact out_value c (grid0.coords t) (ms0_0 t) (hs0_0 t) (ms0_1 t) (hs0_1 t) (xblk m c t) i3

/-- The [12, 1, 1] array the region leaves: entry (t, 0, 0) is the share of slab t. -/
def shares (c : Dev nD) : S12x1x1.Idx → EReal := fun I => slabPart (slabs m c) (⟨(I 0).val, (I 0).isLt⟩ : Fin 12)

/-- What point t writes back is block t of `shares`. -/
theorem flushed_eq (c : Dev nD) (t : Fin cfg0.N) :
    (dats m 0 c).flushed 1 t = ((cfg0.win 1).blk t).view.read (Elt Ideal) (shares m c) := by
  obtain ⟨-, -, -, -, e0, e1, e2⟩ := idx_facts t
  show (cfg0.win 1).cut (grid0.coords t) ((dats m 0 c).after 1 t) = _
  rw [after0_1, outsAt0_eq]
  funext y
  show slabPart (slabs m c) _ = shares m c (((cfg0.win 1).blk t).view.emb y)
  unfold shares
  refine congrArg (slabPart (slabs m c)) (Fin.ext ?_)
  have hy : (y 0).val < 1 := (y 0).isLt
  show t.val = win0_1.index t (0 : Fin 3) * 1 + 1 * (y 0).val
  omega

/-- An index of the array is in point t's block iff each coordinate is in the block's range on its axis. -/
theorem mem_blk (t : Fin cfg0.N) (I : S12x1x1.Idx) :
    I ∈ ((cfg0.win 1).blk t).view.set ↔ ∀ a : Fin 3, win0_1.index t a * S1x1x1.size a ≤ (I a).val
      ∧ (I a).val < win0_1.index t a * S1x1x1.size a + S1x1x1.size a := by
  show I ∈ ((View.whole main_v1).slice (win0_1.rect t)).set ↔ _
  rw [View.set_slice_whole, Rect.mem_set_unit]
  exact Iff.rfl

/-- Every entry of the array is in some point's block: entry (t, 0, 0) in point t's. -/
theorem cover (c : Dev nD) (I : S12x1x1.Idx) :
    ∃ t : Fin cfg0.N, (cfg0.win 1).flush t = true ∧ I ∈ ((cfg0.win 1).blk t).view.set := by
  have h0 : (I 0).val < 12 := (I 0).isLt
  have h1 : (I 1).val = 0 := by have := (I 1).isLt; have e : S12x1x1.size 1 = 1 := rfl; omega
  have h2 : (I 2).val = 0 := by have := (I 2).isLt; have e : S12x1x1.size 2 = 1 := rfl; omega
  have hN : cfg0.N = 12 := N_0
  have hlt : (I 0).val < cfg0.N := by omega
  obtain ⟨-, -, -, -, e0, e1, e2⟩ := idx_facts ⟨(I 0).val, hlt⟩
  have e0' : win0_1.index (⟨(I 0).val, hlt⟩ : Fin cfg0.N) (0 : Fin 3) = (I 0).val := e0
  refine ⟨⟨(I 0).val, hlt⟩, flush0_1 _, ?_⟩
  rw [mem_blk]
  intro a
  match a with
  | ⟨0, _⟩ => show win0_1.index _ (0 : Fin 3) * 1 ≤ (I 0).val ∧ (I 0).val < win0_1.index _ (0 : Fin 3) * 1 + 1; omega
  | ⟨1, _⟩ => show win0_1.index _ (1 : Fin 3) * 1 ≤ (I 1).val ∧ (I 1).val < win0_1.index _ (1 : Fin 3) * 1 + 1; omega
  | ⟨2, _⟩ => show win0_1.index _ (2 : Fin 3) * 1 ≤ (I 2).val ∧ (I 2).val < win0_1.index _ (2 : Fin 3) * 1 + 1; omega

/-- The array after the region. -/
theorem final (c : Dev nD) : (dats m 0 c).arrAt 1 cfg0.N = shares m c :=
  (dats m 0 c).arrAt_eq_of_cover 1 (shares m c) (fun t _ => flushed_eq m c t) (cover c)

/-- An index of the [12, 1, 1] array is its leading coordinate. -/
def lead : S12x1x1.Idx ≃ Fin 12 where
  toFun I := (⟨(I 0).val, (I 0).isLt⟩ : Fin 12)
  invFun t := ix3 t (0 : Fin 1) (0 : Fin 1)
  left_inv I := by
    funext a
    refine Fin.ext ?_
    match a with
    | ⟨0, _⟩ => rfl
    | ⟨1, _⟩ => show 0 = (I 1).val; have h : (I 1).val < 1 := (I 1).isLt; omega
    | ⟨2, _⟩ => show 0 = (I 2).val; have h : (I 2).val < 1 := (I 2).isLt; omega
  right_inv t := rfl

/-- The twelve shares add up to the total over the mesh. -/
theorem sum_shares (c : Dev nD) : ∑ I : S12x1x1.Idx, shares m c I = total (mesh m c) := by
  have e : ∑ I : S12x1x1.Idx, shares m c I = ∑ t : Fin 12, slabPart (slabs m c) t :=
    Fintype.sum_equiv lead (shares m c) (slabPart (slabs m c)) (fun I => rfl)
  rw [e]
  exact sum_slabPart (mesh m c) (slabs m c) (fun b c' h i j k => slabs_apply m c b c' h i j k)

/-- @main's result after the host lines that follow the region: the shares added from zero, over 12. -/
theorem tail_value (c : Dev nD) :
    Pipeline.afterTail₀ cfgs (dats m) 0 (V0 m) [hostOps1] c main_v3
      = fun _ => Ideal.div (total (mesh m c)) (Ideal.ofBits .f32 0x41400000#32) := by
  unfold Pipeline.afterTail₀
  show StableHlo.after hostOps1 _ (Proc.devRef .tc main_v3) = _
  after_results
  rw [(Pipeline.withArrays_arr spec0 launch0.win.arr_inj c _ _ 1).trans (final m c)]
  funext i
  show Ideal.div (Ideal.hostReduceAdd reducesTo_S12x1x1_S_d0_1_2 (shares m c) (Ideal.ofBits .f32 0x00000000#32) i)
      (Ideal.ofBits .f32 0x41400000#32) = _
  rw [Ideal.hostReduceAdd_total reducesTo_S12x1x1_S_d0_1_2 (fun b => b.elim0) (shares m c) _ i,
    Ideal.ofBits_zero_f32, zero_add, sum_shares]

/-- THE KERNEL'S RUN: every weakly fair execution terminates with @main's result at the total over 12 and the mesh
    unchanged. -/
theorem run : θ_run defs (onTc (τ := τ) (main (F := Ideal))) ⟨m, fun _ => 0, ρ⟩ (fun r => ∀ c : Dev nD,
      r.2.mem ((c.tc : Thread nD τ).loc main_v3)
        = (fun _ => Ideal.div (total (mesh m c)) (Ideal.ofBits .f32 0x41400000#32))
      ∧ r.2.mem ((c.tc : Thread nD τ).loc main_arg0) = m ((c.tc : Thread nD τ).loc main_arg0)) :=
  (θ_run defs _ _).mono (fun r h c =>
      ⟨((h c).2 main_v3 (Pipeline.mem_restRefs_of main_v3 (by decide) (by decide))).trans (tail_value m c),
       ((h c).2 main_arg0 (Pipeline.mem_restRefs_of main_arg0 (by decide) (by decide))).trans (W_main_arg0 m (dats m) c)⟩)
    (run_main m ρ)

end Cert.KernelIdeal.SlabRun

end
-- ==== Proof.lean ====
/-
  The certificate: a slab-by-slab kernel for the sum of squared forward differences of a [4, 3, 128, 128, 128] mesh
  over its interior points, divided by 12, against the reference that sums the three kinds of differences separately.

  Over the extended reals both results are `total mesh / 12`, where `total` (Proof/Spec.lean) is the sum over the 12
  leading pairs and the interior points (i, j, k), i, j, k < 127, of
  (x[i+1,j,k] − x[i,j,k])² + (x[i,j+1,k] − x[i,j,k])² + (x[i,j,k+1] − x[i,j,k])².
  The reference takes three sums over the whole interior index set and adds them (Proof/RefValue.lean).  The kernel
  views the mesh as 12 slabs; for each slab it walks the planes along the first axis, adds at every entry of the
  128 × 128 tile the three squares with the in-plane neighbours taken cyclically, zeroes the last row and column,
  and sums the tile; the host adds the twelve numbers and divides by 12 (Proof/Body.lean, Proof/BodyIdeal.lean,
  Proof/PointValue.lean, Proof/KernelValue.lean).  The two arrangements agree because addition of extended reals
  is commutative and associative (Proof/Spec.lean); nothing else is used, so the precondition is never opened.
  The frames of the two kernel programs are the generated ones; the reference's frame is its generated run with the
  result dropped; the idealization rewrote nothing, so `preserves` is trivial.
-/
import proofs.«170996_g5583457484972_feedfinal_621_18_alg».proof.Defs
import proofs.«170996_g5583457484972_feedfinal_621_18_alg».proof.Proof.Gen.Kernel
import proofs.«170996_g5583457484972_feedfinal_621_18_alg».proof.Proof.Gen.Kernel.Frame
import proofs.«170996_g5583457484972_feedfinal_621_18_alg».proof.Proof.Gen.KernelIdeal
import proofs.«170996_g5583457484972_feedfinal_621_18_alg».proof.Proof.Gen.KernelIdeal.Frame
import proofs.«170996_g5583457484972_feedfinal_621_18_alg».proof.Proof.Gen.ReferenceIdeal
import proofs.«170996_g5583457484972_feedfinal_621_18_alg».proof.Proof.Gen.ReferenceIdeal.Run
import proofs.«170996_g5583457484972_feedfinal_621_18_alg».proof.Proof.Gen.ReferenceIdeal.Read
import proofs.«170996_g5583457484972_feedfinal_621_18_alg».proof.Proof.Gen.Pre_finite_inputs
import proofs.«170996_g5583457484972_feedfinal_621_18_alg».proof.Proof.RefValue
import proofs.«170996_g5583457484972_feedfinal_621_18_alg».proof.Proof.KernelValue

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories that agree on the mesh both programs end at the total of the squared forward differences over 12. -/
theorem algebraic : Cert.algebraic_KernelIdeal_ReferenceIdeal := by
  intro m ρ m' ρ' _ hagree
  refine ⟨fun c => fun _ => Ideal.div (Cert.FwdDiff.total (Cert.KernelIdeal.SlabRun.mesh m c))
    (Ideal.ofBits .f32 0x41400000#32), Cert.KernelIdeal.SlabRun.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v15_eq _).trans ((Cert.ReferenceIdeal.RefValue.ref_value _).trans ?_)
  rw [hagree c]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
